-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S4096x64 : Shape := ⟨2, ![4096, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S16384x64 .f32) (main_arg1 : FVec F S4096x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S16384x64 : Shape := ⟨2, ![16384, 64]⟩
abbrev S4096x64 : Shape := ⟨2, ![4096, 64]⟩
abbrev S16384x4096 : Shape := ⟨2, ![16384, 4096]⟩
abbrev S2048x64 : Shape := ⟨2, ![2048, 64]⟩
abbrev S512x64 : Shape := ⟨2, ![512, 64]⟩
abbrev S2048x512 : Shape := ⟨2, ![2048, 512]⟩
abbrev S2048 : Shape := ⟨1, ![2048]⟩
abbrev S2048x1 : Shape := ⟨2, ![2048, 1]⟩
abbrev S512 : Shape := ⟨1, ![512]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S16384x4096, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S512x64, .f32⟩
  | .local _ .vmem, ⟨4, _⟩ => ⟨S2048x512, .f32⟩
  | .local _ .vmem, ⟨5, _⟩ => ⟨S2048x512, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x64_S2048x64_0_0 : ∀ a, (![0, 0] : Fin 2 → Nat) a + S2048x64.size a ≤ S2048x64.size a
  h_S2048x64 : 0 < S2048x64.numel
  inb_S512x64_S512x64_0_0 : ∀ a, (![0, 0] : Fin 2 → Nat) a + S512x64.size a ≤ S512x64.size a
  h_S512x64 : 0 < S512x64.numel
  reduces_S2048x64_S2048 : S2048x64.Reduces [1] S2048
  shapeCasts_S2048_S2048x1 : S2048.ShapeCasts S2048x1
  reduces_S512x64_S512 : S512x64.Reduces [1] S512
  shapeCasts_S512_S1x512 : S512.ShapeCasts S1x512
  bitsLt_bf16_f32 : FTy.bits .bf16 < FTy.bits .f32
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x64_S512x64_S2048x512_1_1_0_0_n_n_wf : DotDims.WF S2048x64 S512x64 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S16384x64.size a
  hwx0_0 : ∀ i : grid0.Coords, EltTy.bits .f32 = 32 ∨ (Rect.block (s := S16384x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S4096x64.size a
  hwx0_1 : ∀ i : grid0.Coords, EltTy.bits .f32 = 32 ∨ (Rect.block (s := S4096x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x4096.size a
  hwx0_2 : ∀ i : grid0.Coords, EltTy.bits .f32 = 32 ∨ (Rect.block (s := S16384x4096) S2048x512.size (cc0_transform_2 i) (hinb0_2 i)).WholeWords (EltTy.packing .f32)

variable [Facts₀]

def dot_S2048x64_S512x64_S2048x512_1_1_0_0_n_n : DotDims S2048x64 S512x64 S2048x512 where
  lhsContracting := [1]
  rhsContracting := [1]
  lhsNonContracting := [0]
  rhsNonContracting := [0]
  lhsBatch := []
  rhsBatch := []
  wf := dot_S2048x64_S512x64_S2048x512_1_1_0_0_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x64 : Shape := ⟨2, ![16384, 64]⟩
abbrev S4096x64 : Shape := ⟨2, ![4096, 64]⟩
abbrev S_ : Shape := ⟨0, ![]⟩
abbrev S16384 : Shape := ⟨1, ![16384]⟩
abbrev S16384x1 : Shape := ⟨2, ![16384, 1]⟩
abbrev S4096 : Shape := ⟨1, ![4096]⟩
abbrev S1x4096 : Shape := ⟨2, ![1, 4096]⟩
abbrev S16384x4096 : Shape := ⟨2, ![16384, 4096]⟩

abbrev nBuf : Space → Nat
  | .hbm => 39
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S4096x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x64, .f32⟩
  | .hbm, ⟨7, _⟩ => ⟨S_, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S_, .f32⟩
  | .hbm, ⟨33, _⟩ => ⟨S16384x4096, .f32⟩
  | .hbm, ⟨34, _⟩ => ⟨S16384x4096, .f32⟩
  | .hbm, ⟨35, _⟩ => ⟨S_, .f32⟩
  | .hbm, ⟨36, _⟩ => ⟨S16384x4096, .f32⟩
  | .hbm, ⟨37, _⟩ => ⟨S16384x4096, .f32⟩
  | .hbm, ⟨38, _⟩ => ⟨S16384x4096, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  reducesTo_S4096x64_S4096_d1 : S4096x64.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x64_S4096x64_S16384x4096_1_1_0_0_n_n_wf : DotDims.WF S16384x64 S4096x64 S16384x4096 [1] [1] [0] [0] [] []

variable [Facts₀]

def dot_S16384x64_S4096x64_S16384x4096_1_1_0_0_n_n : DotDims S16384x64 S4096x64 S16384x4096 where
  lhsContracting := [1]
  rhsContracting := [1]
  lhsNonContracting := [0]
  rhsNonContracting := [0]
  lhsBatch := []
  rhsBatch := []
  wf := dot_S16384x64_S4096x64_S16384x4096_1_1_0_0_n_n_wf

class Facts : Prop extends Facts₀ where

variable [Facts]
-- ==== Proof.DistanceGelu.lean ====
/-
  The function both programs compute, stated once over the extended reals.

  For a row `u` of `x` and a row `v` of `weight`, each of 64 entries, the squared distance is taken by the
  expansion |u|² + |v|² − 2·(u · v), clamped below at zero, and its root `y` is passed through the tanh form of
  GELU: y · (½ · (1 + tanh (c · (y + e · y³)))), the constants kept as the binary words both programs print
  (2, 0, ½, 1, c = 0x3F4C422A, e = 0x3D372713), so that no word is ever evaluated. The result array holds, at
  (b, j), that value for row `b` of `x` and row `j` of `weight`.

  The one algebraic step between the two programs is the grouping of the cube: one writes y · (y · y), the other
  (y · y) · y. Multiplication of extended reals is commutative, so they agree at every value, the infinities
  included; no finiteness is used anywhere.
-/
import Idealize.ShloMosaic.PureOps.Ideal
import Idealize.ShloMosaic.Lib.ValueIdx

noncomputable section

namespace Cert.DistanceGelu

open Idealize.ShloMosaic Idealize.ShloMosaic.ValueIdx

/-- The sum of the squares of a row's 64 entries. -/
def rowSq (u : Fin 64 → EReal) : EReal := ∑ k : Fin 64, u k * u k

/-- The inner product of two rows of 64 entries. -/
def rowDot (u v : Fin 64 → EReal) : EReal := ∑ k : Fin 64, u k * v k

/-- The distance between two rows by the expansion |u|² + |v|² − 2·(u · v), clamped at zero before the root. -/
def rowDist (u v : Fin 64 → EReal) : EReal :=
  Ideal.sqrt (max ((rowSq u + rowSq v) - Ideal.ofBits .f32 0x40000000#32 * rowDot u v) (Ideal.ofBits .f32 0x00000000#32))

/-- The tanh form of GELU, the cube grouped as y · (y · y). -/
def geluTanh (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * (y * y))))))

/-- The same with the cube grouped as (y · y) · y: multiplication of extended reals commutes. -/
theorem geluTanh_cube_left (y : EReal) :
    y * (Ideal.ofBits .f32 0x3F000000#32 * (Ideal.ofBits .f32 0x3F800000#32
      + Ideal.tanh (Ideal.ofBits .f32 0x3F4C422A#32 * (y + Ideal.ofBits .f32 0x3D372713#32 * ((y * y) * y)))))
      = geluTanh y := by
  unfold geluTanh
  rw [mul_comm (y * y) y]

/-- The value at row `b` of `x` and row `j` of `weight`. -/
def distGeluAt (x : (⟨2, ![16384, 64]⟩ : Shape).Idx → EReal) (w : (⟨2, ![4096, 64]⟩ : Shape).Idx → EReal)
    (b : Fin 16384) (j : Fin 4096) : EReal :=
  geluTanh (rowDist (fun k => x (ix2 b k)) (fun k => w (ix2 j k)))

/-- The whole result array: entry (b, j) is `distGeluAt` of row `b` of `x` and row `j` of `weight`. -/
def distGelu (x : (⟨2, ![16384, 64]⟩ : Shape).Idx → EReal) (w : (⟨2, ![4096, 64]⟩ : Shape).Idx → EReal) :
    (⟨2, ![16384, 4096]⟩ : Shape).Idx → EReal :=
  fun i => distGeluAt x w ⟨(i 0).val, (i 0).isLt⟩ ⟨(i 1).val, (i 1).isLt⟩

theorem distGelu_ix2 (x : (⟨2, ![16384, 64]⟩ : Shape).Idx → EReal) (w : (⟨2, ![4096, 64]⟩ : Shape).Idx → EReal)
    (b : Fin 16384) (j : Fin 4096) : distGelu x w (ix2 b j) = distGeluAt x w b j := rfl

end Cert.DistanceGelu

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BodyAtIndex.lean ====
/-
  The kernel body's result at an index of its block.

  Given a block `xb` of 2048 rows of `x` and a block `wb` of 512 rows of `weight`, the body stores a 2048 × 512
  block whose entry (p, q) is the tanh form of GELU of the clamped distance between row `p` of `xb` and row `q`
  of `wb`. Three of its operations are not entry-by-entry and are read here at (p, q):
  * the row sums of squares of `xb`, a lane sum reshaped to a column and broadcast along the second axis: at
    (p, q) the sum over `k` of `xb (p, k)²`;
  * the row sums of squares of `wb`, a lane sum reshaped to one row and broadcast along the first axis: at (p, q)
    the sum over `k` of `wb (q, k)²`;
  * the matrix product, contracting the second axis of both operands into a zero accumulator: at (p, q) the sum
    over `k` of `xb (p, k) · wb (q, k)` (the change of format in front of it is the identity on extended reals).
  Everything after them acts entry by entry, so the entry is the specification's tail of those three numbers.
-/
import proofs.«134852_j34325378630130_1_alg».proof.Proof.Gen.KernelIdeal.Skeleton
import proofs.«134852_j34325378630130_1_alg».proof.Proof.DistanceGelu
import proofs.«134852_j34325378630130_1_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx Cert.DistanceGelu Cert.LibColumn

/-! ## The three operations that are not entry-by-entry -/

/-- The row sums of squares of the `x` block, laid over the output block. -/
def sqRowsX (xb : Vec Ideal S2048x64 .f32) : FVec Ideal S2048x512 .f32 :=
  broadcastTo S2048x512
    (shapeCast S2048x1 (multiReduction (F := Ideal) .add [1] S2048 (mulf xb xb) 0x00000000#32 reduces_S2048x64_S2048 (.inl rfl) rfl)
      shapeCasts_S2048_S2048x1)
    broadcasts_S2048x1_S2048x512

/-- The row sums of squares of the `weight` block, laid over the output block. -/
def sqRowsW (wb : Vec Ideal S512x64 .f32) : FVec Ideal S2048x512 .f32 :=
  broadcastTo S2048x512
    (shapeCast S1x512 (multiReduction (F := Ideal) .add [1] S512 (mulf wb wb) 0x00000000#32 reduces_S512x64_S512 (.inl rfl) rfl)
      shapeCasts_S512_S1x512)
    broadcasts_S1x512_S2048x512

/-- The matrix product of the two blocks over their shared axis, into a zero accumulator. -/
def prodRows (xb : Vec Ideal S2048x64 .f32) (wb : Vec Ideal S512x64 .f32) : FVec Ideal S2048x512 .f32 :=
  matmul dot_S2048x64_S512x64_S2048x512_1_1_0_0_n_n none (truncf .bf16 xb bitsLt_bf16_f32) (truncf .bf16 wb bitsLt_bf16_f32)
    (constant (F := Ideal) S2048x512 .f32 0x00000000#32)

/-- At (p, q): the sum of the squares of row `p` of the `x` block. -/
theorem sqRowsX_apply (xb : Vec Ideal S2048x64 .f32) (p : Fin 2048) (q : Fin 512) :
    sqRowsX xb (ix2 p q) = rowSq (fun k => xb (ix2 p k)) := by
  unfold sqRowsX
  refine (broadcastTo_a1_ab_apply _ broadcasts_S2048x1_S2048x512 p q).trans ?_
  refine (shapeCast_a_a1_apply _ shapeCasts_S2048_S2048x1 p (0 : Fin 1)).trans ?_
  refine (Ideal.multiReduction_add_single (mulf xb xb) 0x00000000#32 reduces_S2048x64_S2048 (.inl rfl) rfl (ix1 p)).trans ?_
  unfold rowSq
  refine Finset.sum_congr rfl fun k _ => ?_
  have e : reduces_S2048x64_S2048.lift (ix1 p) k = ix2 p k :=
    funext fun a => Fin.ext (by match a with | ⟨0, _⟩ => rfl | ⟨1, _⟩ => rfl)
  rw [e]
  rfl

/-- At (p, q): the sum of the squares of row `q` of the `weight` block. -/
theorem sqRowsW_apply (wb : Vec Ideal S512x64 .f32) (p : Fin 2048) (q : Fin 512) :
    sqRowsW wb (ix2 p q) = rowSq (fun k => wb (ix2 q k)) := by
  unfold sqRowsW
  refine (broadcastTo_1b_ab_apply _ broadcasts_S1x512_S2048x512 p q).trans ?_
  refine (shapeCast_a_1a_apply _ shapeCasts_S512_S1x512 (0 : Fin 1) q).trans ?_
  refine (Ideal.multiReduction_add_single (mulf wb wb) 0x00000000#32 reduces_S512x64_S512 (.inl rfl) rfl (ix1 q)).trans ?_
  unfold rowSq
  refine Finset.sum_congr rfl fun k _ => ?_
  have e : reduces_S512x64_S512.lift (ix1 q) k = ix2 q k :=
    funext fun a => Fin.ext (by match a with | ⟨0, _⟩ => rfl | ⟨1, _⟩ => rfl)
  rw [e]
  rfl

/-! ## The matrix product's operand indices, axis by axis -/

theorem lhs_axis0 (i : S2048x512.Idx) (r : dot_S2048x64_S512x64_S2048x512_1_1_0_0_n_n.contr.Idx) :
    (dot_S2048x64_S512x64_S2048x512_1_1_0_0_n_n.lhsIdx i r 0).val = (i 0).val := by
  unfold DotDims.lhsIdx
  rw [dif_neg (show ¬(0 : Fin S2048x64.rank) ∈ dot_S2048x64_S512x64_S2048x512_1_1_0_0_n_n.lhsBatch by decide), dif_pos (show (0 : Fin S2048x64.rank) ∈ dot_S2048x64_S512x64_S2048x512_1_1_0_0_n_n.lhsNonContracting by decide)]
  rfl
theorem lhs_axis1 (i : S2048x512.Idx) (r : dot_S2048x64_S512x64_S2048x512_1_1_0_0_n_n.contr.Idx) :
    (dot_S2048x64_S512x64_S2048x512_1_1_0_0_n_n.lhsIdx i r 1).val = (r ⟨0, by decide⟩).val :=
  dot_S2048x64_S512x64_S2048x512_1_1_0_0_n_n.lhsIdx_val_of_single rfl i r
theorem rhs_axis0 (i : S2048x512.Idx) (r : dot_S2048x64_S512x64_S2048x512_1_1_0_0_n_n.contr.Idx) :
    (dot_S2048x64_S512x64_S2048x512_1_1_0_0_n_n.rhsIdx i r 0).val = (i 1).val := by
  unfold DotDims.rhsIdx
  rw [dif_neg (show ¬(0 : Fin S512x64.rank) ∈ dot_S2048x64_S512x64_S2048x512_1_1_0_0_n_n.rhsBatch by decide), dif_pos (show (0 : Fin S512x64.rank) ∈ dot_S2048x64_S512x64_S2048x512_1_1_0_0_n_n.rhsNonContracting by decide)]
  rfl
theorem rhs_axis1 (i : S2048x512.Idx) (r : dot_S2048x64_S512x64_S2048x512_1_1_0_0_n_n.contr.Idx) :
    (dot_S2048x64_S512x64_S2048x512_1_1_0_0_n_n.rhsIdx i r 1).val = (r ⟨0, by decide⟩).val :=
  dot_S2048x64_S512x64_S2048x512_1_1_0_0_n_n.rhsIdx_val_of_single rfl i r

/-- At (p, q): the inner product of row `p` of the `x` block with row `q` of the `weight` block. -/
theorem prodRows_apply (xb : Vec Ideal S2048x64 .f32) (wb : Vec Ideal S512x64 .f32) (p : Fin 2048) (q : Fin 512) :
    prodRows xb wb (ix2 p q) = rowDot (fun k => xb (ix2 p k)) (fun k => wb (ix2 q k)) := by
  unfold prodRows
  simp only [matmul]
  rw [Ideal.matmul_constant_zero_apply, ← Equiv.sum_comp (contrEquiv1 dot_S2048x64_S512x64_S2048x512_1_1_0_0_n_n 64 rfl rfl).symm]
  unfold rowDot
  refine Finset.sum_congr rfl fun k _ => ?_
  have hk := contrEquiv1_symm_val dot_S2048x64_S512x64_S2048x512_1_1_0_0_n_n 64 rfl rfl k
  have el : dot_S2048x64_S512x64_S2048x512_1_1_0_0_n_n.lhsIdx (ix2 p q) ((contrEquiv1 dot_S2048x64_S512x64_S2048x512_1_1_0_0_n_n 64 rfl rfl).symm k) = ix2 p k := funext fun a => Fin.ext (by
    match a with
    | ⟨0, _⟩ => exact lhs_axis0 _ _
    | ⟨1, _⟩ => exact (lhs_axis1 _ _).trans hk)
  have er : dot_S2048x64_S512x64_S2048x512_1_1_0_0_n_n.rhsIdx (ix2 p q) ((contrEquiv1 dot_S2048x64_S512x64_S2048x512_1_1_0_0_n_n 64 rfl rfl).symm k) = ix2 q k := funext fun a => Fin.ext (by
    match a with
    | ⟨0, _⟩ => exact rhs_axis0 _ _
    | ⟨1, _⟩ => exact (rhs_axis1 _ _).trans hk)
  rw [el, er]
  rfl

/-! ## The entry-by-entry tail -/

/-- What the body makes of the three numbers at an entry: the clamped difference, its root, the tanh form of GELU. -/
def tail (a b d : EReal) : EReal :=
  geluTanh (Ideal.sqrt (max ((a + b) - Ideal.ofBits .f32 0x40000000#32 * d) (Ideal.ofBits .f32 0x00000000#32)))

/-- The stored value at any entry is the tail of the three operations' values there: every other operation of
    the body acts entry by entry. -/
theorem stored_split (xb : Vec Ideal S2048x64 .f32) (wb : Vec Ideal S512x64 .f32) (j : S2048x512.Idx) :
    k0_pay1 (F := Ideal) xb wb j = tail (sqRowsX xb j) (sqRowsW wb j) (prodRows xb wb j) := rfl

/-- The stored value at (p, q): the tanh form of GELU of the clamped distance between row `p` of the `x` block
    and row `q` of the `weight` block. -/
theorem stored_apply (xb : Vec Ideal S2048x64 .f32) (wb : Vec Ideal S512x64 .f32) (p : Fin 2048) (q : Fin 512) :
    k0_pay1 (F := Ideal) xb wb (ix2 p q) = geluTanh (rowDist (fun k => xb (ix2 p k)) (fun k => wb (ix2 q k))) :=
by
  refine (stored_split xb wb (ix2 p q)).trans ?_
  rw [sqRowsX_apply, sqRowsW_apply, prodRows_apply]
  rfl

end Cert.KernelIdeal.Body

end
-- ==== Proof.BlocksToArray.lean ====
/-
  From the blocks to the whole result array.

  The grid has 8 × 8 points. At the point with coordinates (g, h) the pipeline hands the body rows
  2048·g … 2048·g + 2047 of `x` and rows 512·h … 512·h + 511 of `weight`, and writes the body's 2048 × 512 result
  back as block (g, h) of the result array. Entry (p, q) of that block is array entry (2048·g + p, 512·h + q), and by
  the body's value at an index it is the specified function of row 2048·g + p of `x` and row 512·h + q of `weight`:
  so every point writes back the matching block of ONE whole-array function. The 64 blocks tile the
  16384 × 4096 array (the block holding entry (b, j) is the one at (b / 2048, j / 512)), hence after the run the
  array is that function everywhere.
-/
import proofs.«134852_j34325378630130_1_alg».proof.Proof.Gen.KernelIdeal.Value
import proofs.«134852_j34325378630130_1_alg».proof.Proof.BodyAtIndex

noncomputable section

namespace Cert.KernelIdeal.Whole

open Cert.KernelIdeal Cert.KernelIdeal.Gen Cert.KernelIdeal.Body
open Idealize.ShloMosaic Idealize.ShloMosaic.TcCoe Idealize.SL.Sem Idealize.ShloMosaic.ValueIdx Cert.DistanceGelu
open Idealize.ShloMosaic.Pipeline (Dat)

variable (m : (ℓ : Loc nD τ sig) → Buf (Elt Ideal) ℓ) (ρ : Dev nD → PrngReg)

theorem origin_zero : (![0, 0] : Fin 2 → Nat) = fun _ => 0 := funext fun a => by fin_cases a <;> rfl

/-- An entry of a stored block is the specified function at the array index it lands on, once the two input blocks'
    rows are known to be the rows of `x` and `weight` that index names. -/
theorem block_entry (X : (⟨2, ![16384, 64]⟩ : Shape).Idx → EReal) (W : (⟨2, ![4096, 64]⟩ : Shape).Idx → EReal)
    (xb : Vec Ideal S2048x64 .f32) (wb : Vec Ideal S512x64 .f32) (j : S2048x512.Idx) (i : S16384x4096.Idx)
    (hx : ∀ k : Fin 64, xb (ix2 (⟨(j 0).val, (j 0).isLt⟩ : Fin 2048) k) = X (ix2 (⟨(i 0).val, (i 0).isLt⟩ : Fin 16384) k))
    (hw : ∀ k : Fin 64, wb (ix2 (⟨(j 1).val, (j 1).isLt⟩ : Fin 512) k) = W (ix2 (⟨(i 1).val, (i 1).isLt⟩ : Fin 4096) k)) :
    k0_pay1 (F := Ideal) xb wb j = distGelu X W i := by
  obtain ⟨p, q, rfl⟩ : ∃ (p : Fin 2048) (q : Fin 512), j = ix2 p q := ⟨j 0, j 1, eq_ix2 j⟩
  rw [stored_apply]
  unfold distGelu distGeluAt
  have ex : (fun k => xb (ix2 p k)) = fun k => X (ix2 (⟨(i 0).val, (i 0).isLt⟩ : Fin 16384) k) := funext hx
  have ew : (fun k => wb (ix2 q k)) = fun k => W (ix2 (⟨(i 1).val, (i 1).isLt⟩ : Fin 4096) k) := funext hw
  rw [ex, ew]

/-- The index maps over the grid: the `x` window follows the result's block row, the `weight` window its block
    column, neither moves along the shared axis, and the result's block indices stay below 8. -/
theorem block_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 7 :=
  (by decide +kernel : ∀ t : Fin grid0.N, _)

/-- Every block (g, h) of the result is some point's. -/
theorem block_onto : ∀ (g h : Fin 8), ∃ t : Fin cfg0.N, win0_2.index t = ![g.val, h.val] :=
  (by decide +kernel : ∀ (g h : Fin 8), ∃ t : Fin grid0.N, win0_2.index t = ![g.val, h.val])

/-- What point `t` writes back is block `t` of the specified function of the two argument arrays. -/
theorem flushed_eq (c : Dev nD) (t : Fin cfg0.N) :
    (dats m 0 c).flushed 2 t
      = ((cfg0.win 2).blk t).view.read (Elt Ideal) (distGelu (V m c main_arg0) (V m c main_arg1)) := by
  rw [Cert.KernelIdeal.Value.flushed2]
  unfold out0_2
  rw [View.canon_unit_zero origin_zero]
  simp only [View.ld_unit_zero (S := S2048x64) origin_zero, View.ld_unit_zero (S := S512x64) origin_zero]
  obtain ⟨e0, e1, e2, e3, -, -⟩ := block_indices t
  funext j
  refine block_entry (V m c main_arg0) (V m c main_arg1) (iblk m c 0 t) (iblk m c 1 t) j
    (((cfg0.win 2).blk t).view.emb j) (fun k => ?_) (fun k => ?_)
  · show V m c main_arg0 (((cfg0.win 0).blk t).view.emb (ix2 (⟨(j 0).val, (j 0).isLt⟩ : Fin 2048) k)) = V m c main_arg0 _
    refine congrArg (V m c main_arg0) (funext fun a => Fin.ext ?_)
    match a with
    | ⟨0, _⟩ =>
      show win0_0.index t (0 : Fin 2) * 2048 + 1 * (j 0).val = win0_2.index t (0 : Fin 2) * 2048 + 1 * (j 0).val
      omega
    | ⟨1, _⟩ =>
      show win0_0.index t (1 : Fin 2) * 64 + 1 * k.val = k.val
      omega
  · show V m c main_arg1 (((cfg0.win 1).blk t).view.emb (ix2 (⟨(j 1).val, (j 1).isLt⟩ : Fin 512) k)) = V m c main_arg1 _
    refine congrArg (V m c main_arg1) (funext fun a => Fin.ext ?_)
    match a with
    | ⟨0, _⟩ =>
      show win0_1.index t (0 : Fin 2) * 512 + 1 * (j 1).val = win0_2.index t (1 : Fin 2) * 512 + 1 * (j 1).val
      omega
    | ⟨1, _⟩ =>
      show win0_1.index t (1 : Fin 2) * 64 + 1 * k.val = k.val
      omega

/-- An array index is in point `t`'s block iff each coordinate is in the block's range on its axis. -/
theorem mem_blk (t : Fin cfg0.N) (i : S16384x4096.Idx) :
    i ∈ ((cfg0.win 2).blk t).view.set ↔ ∀ a : Fin 2, win0_2.index t a * S2048x512.size a ≤ (i a).val
      ∧ (i a).val < win0_2.index t a * S2048x512.size a + S2048x512.size a := by
  show i ∈ ((View.whole main_v0).slice (win0_2.rect t)).set ↔ _
  rw [View.set_slice_whole, Rect.mem_set_unit]
  exact Iff.rfl

/-- Every array index lies in the block of the point at (row / 2048, column / 512), which writes back. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := block_onto ⟨(i 0).val / 2048, by omega⟩ ⟨(i 1).val / 512, by omega⟩
  have q0 : win0_2.index t (0 : Fin 2) = (i 0).val / 2048 := congrFun ht 0
  have q1 : win0_2.index t (1 : Fin 2) = (i 1).val / 512 := congrFun ht 1
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 512 ≤ (i 1).val ∧ (i 1).val < win0_2.index t (1 : Fin 2) * 512 + 512
    omega

/-- After the run the result array is the specified function of the two arguments as launched. -/
theorem final (c : Dev nD) :
    (dats m 0 c).arrAt 2 cfg0.N
      = distGelu (m ((c : Thread nD τ).loc main_arg0)) (m ((c : Thread nD τ).loc main_arg1)) :=
  (dats m 0 c).arrAt_eq_of_cover 2 (distGelu (V m c main_arg0) (V m c main_arg1)) (fun t _ => flushed_eq m c t) covered

/-- The kernel's run, read: the result array at the specified function, the arguments unchanged. -/
theorem run : θ_run defs (onTc (τ := τ) (main (F := Ideal))) ⟨m, fun _ => 0, ρ⟩ fun r => ∀ c : Dev nD,
      r.2.mem ((c : Thread nD τ).loc main_v0)
        = distGelu (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.ReferenceIsSpec.lean ====
/-
  The reference's result is the specified function.

  Read one operation at a time, the reference forms for the index (b, j): the sum of squares of row `b` of `x`
  and of row `j` of `weight` (each a host sum from the initial value zero, broadcast over the other axis), their
  inner product (the host's `dot_general` over the shared axis of 64), the clamped difference, its root `y`,
  and the tanh form of GELU with the cube grouped (y · y) · y. The indices through which the broadcasts and the
  two sums read their operands are rows `b` and `j` at the running coordinate `k`; the zero initial value drops
  out of each sum; and the cube's grouping is the one the specification's lemma turns.
-/
import proofs.«134852_j34325378630130_1_alg».proof.Proof.Gen.ReferenceIdeal.Read
import proofs.«134852_j34325378630130_1_alg».proof.Proof.DistanceGelu

noncomputable section

namespace Cert.ReferenceIdeal.IsSpec

open Cert.ReferenceIdeal Cert.ReferenceIdeal.Gen Cert.ReferenceIdeal.Read
open Idealize.ShloMosaic Idealize.ShloMosaic.ValueIdx Cert.DistanceGelu

/-- Row `b` of `x` at `k`, through the broadcasts of the row sums. -/
theorem idx_rowsq_x (i : S16384x4096.Idx) (k : Fin 64) :
    idx_main_v1 (idx_main_v2 (idx_main_v7 i)) k = ix2 (⟨(i 0).val, (i 0).isLt⟩ : Fin 16384) k :=
  funext fun a => Fin.ext (by match a with | ⟨0, _⟩ => rfl | ⟨1, _⟩ => rfl)

/-- Row `j` of `weight` at `k`, through the broadcasts of the row sums. -/
theorem idx_rowsq_w (i : S16384x4096.Idx) (k : Fin 64) :
    idx_main_v4 (idx_main_v5 (idx_main_v8 i)) k = ix2 (⟨(i 1).val, (i 1).isLt⟩ : Fin 4096) k :=
  funext fun a => Fin.ext (by match a with | ⟨0, _⟩ => rfl | ⟨1, _⟩ => rfl)

/-- The inner product's left operand: row `b` of `x` at `k`. -/
theorem idx_dot_x (i : S16384x4096.Idx) (k : Fin 64) :
    lidx_main_v6 i k = ix2 (⟨(i 0).val, (i 0).isLt⟩ : Fin 16384) k :=
  funext fun a => Fin.ext (by match a with | ⟨0, _⟩ => rfl | ⟨1, _⟩ => rfl)

/-- The inner product's right operand: row `j` of `weight` at `k`. -/
theorem idx_dot_w (i : S16384x4096.Idx) (k : Fin 64) :
    ridx_main_v6 i k = ix2 (⟨(i 1).val, (i 1).isLt⟩ : Fin 4096) k :=
  funext fun a => Fin.ext (by match a with | ⟨0, _⟩ => rfl | ⟨1, _⟩ => rfl)

/-- The root stage at (b, j) is the clamped distance between row `b` of `x` and row `j` of `weight`. -/
theorem root_stage (x0 : (⟨S16384x64, .f32⟩ : BufTy).Contents (Elt Ideal)) (x1 : (⟨S4096x64, .f32⟩ : BufTy).Contents (Elt Ideal))
    (i : S16384x4096.Idx) :
    val_main_v15 (F := Ideal) x0 x1 i
      = rowDist (fun k => x0 (ix2 (⟨(i 0).val, (i 0).isLt⟩ : Fin 16384) k)) (fun k => x1 (ix2 (⟨(i 1).val, (i 1).isLt⟩ : Fin 4096) k)) := by
  rw [val_main_v15_apply, val_main_v14_apply, val_main_v13_apply, val_main_cst_2_apply, val_main_v12_apply,
    val_main_v11_apply, val_main_v10_apply, val_main_cst_1_apply, val_main_v9_apply, val_main_v8_apply,
    val_main_v5_apply, val_main_v4_apply, val_main_v7_apply, val_main_v2_apply, val_main_v1_apply, val_main_v6_apply]
  simp only [val_main_v0_apply, val_main_v3_apply, val_main_cst_apply, val_main_cst_0_apply, idx_rowsq_x, idx_rowsq_w,
    idx_dot_x, idx_dot_w, Ideal.hostUnary_sqrt_def, Ideal.maximumf_def, Ideal.subf_def, Ideal.addf_def, Ideal.mulf_def,
    Ideal.ofBits_def]
  unfold rowDist rowSq rowDot
  rw [Ideal.ofBits_zero_f32, zero_add, zero_add]

/-- The last stage at (b, j) is the tanh form of GELU of the root stage, the cube grouped on the left. -/
theorem last_stage (x0 : (⟨S16384x64, .f32⟩ : BufTy).Contents (Elt Ideal)) (x1 : (⟨S4096x64, .f32⟩ : BufTy).Contents (Elt Ideal))
    (i : S16384x4096.Idx) :
    val_main_v28 (F := Ideal) x0 x1 i = geluTanh (val_main_v15 (F := Ideal) x0 x1 i) := by
  rw [val_main_v28_apply, val_main_v27_apply, val_main_v26_apply, val_main_cst_6_apply, val_main_v25_apply,
    val_main_v24_apply, val_main_cst_5_apply, val_main_v23_apply, val_main_v22_apply, val_main_v21_apply,
    val_main_cst_4_apply, val_main_v20_apply, val_main_v19_apply, val_main_v18_apply, val_main_cst_3_apply,
    val_main_v17_apply, val_main_v16_apply]
  generalize val_main_v15 (F := Ideal) x0 x1 i = y
  simp only [Ideal.hostUnary_tanh_def, Ideal.addf_def, Ideal.mulf_def, Ideal.ofBits_def]
  exact geluTanh_cube_left y

/-- The reference's result array is the specified function of its two arguments. -/
theorem result_eq (x0 : (⟨S16384x64, .f32⟩ : BufTy).Contents (Elt Ideal)) (x1 : (⟨S4096x64, .f32⟩ : BufTy).Contents (Elt Ideal)) :
    val_main_v28 (F := Ideal) x0 x1 = distGelu x0 x1 := by
  funext i
  rw [last_stage, root_stage]
  rfl

end Cert.ReferenceIdeal.IsSpec

end
-- ==== Proof.lean ====
/-
  out[b, j] = gelu(‖weight[j] − x[b]‖₂), the squared distance taken by the expansion ‖u‖² + ‖v‖² − 2·(u · v) and
  clamped at zero before the root, the GELU in its tanh form: a tiled kernel against the same formula on whole arrays.

  Over the extended reals the two programs compute ONE function (Proof/DistanceGelu.lean). The kernel works on
  2048 × 512 output blocks: its row sums are lane sums reshaped and broadcast, its inner products one matrix product
  of the two input blocks after a change of format that is the identity on extended reals; read at an entry these
  are the plain sums the reference takes on the whole arrays (Proof/BodyAtIndex.lean for the kernel's body,
  Proof/ReferenceIsSpec.lean for the reference, one operation at a time). The 8 × 8 blocks tile the result array, so
  the kernel's array after the run is that function everywhere (Proof/BlocksToArray.lean). The only algebra between
  the two sides is the grouping of y³, y · (y · y) against (y · y) · y: commutativity of the product, true at the
  infinities too, so the finiteness of the inputs is never used.

  The three frames are the generated frame certificates (the reference's is its generated run with the result
  dropped); the idealization rewrote no operation, so there is nothing to preserve.
-/
import proofs.«134852_j34325378630130_1_alg».proof.Defs
import proofs.«134852_j34325378630130_1_alg».proof.Proof.Gen.Kernel
import proofs.«134852_j34325378630130_1_alg».proof.Proof.Gen.Kernel.Skeleton
import proofs.«134852_j34325378630130_1_alg».proof.Proof.Gen.Kernel.Launch
import proofs.«134852_j34325378630130_1_alg».proof.Proof.Gen.Kernel.Points
import proofs.«134852_j34325378630130_1_alg».proof.Proof.Gen.Kernel.Frame
import proofs.«134852_j34325378630130_1_alg».proof.Proof.Gen.KernelIdeal
import proofs.«134852_j34325378630130_1_alg».proof.Proof.Gen.KernelIdeal.Skeleton
import proofs.«134852_j34325378630130_1_alg».proof.Proof.Gen.KernelIdeal.Launch
import proofs.«134852_j34325378630130_1_alg».proof.Proof.Gen.KernelIdeal.Points
import proofs.«134852_j34325378630130_1_alg».proof.Proof.Gen.KernelIdeal.Frame
import proofs.«134852_j34325378630130_1_alg».proof.Proof.Gen.ReferenceIdeal
import proofs.«134852_j34325378630130_1_alg».proof.Proof.Gen.Pre_finite_inputs
import proofs.«134852_j34325378630130_1_alg».proof.Proof.Gen.KernelIdeal.Value
import proofs.«134852_j34325378630130_1_alg».proof.Proof.Gen.ReferenceIdeal.Run
import proofs.«134852_j34325378630130_1_alg».proof.Proof.Gen.ReferenceIdeal.Read
import proofs.«134852_j34325378630130_1_alg».proof.Proof.BlocksToArray
import proofs.«134852_j34325378630130_1_alg».proof.Proof.ReferenceIsSpec
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on `x` and `weight`, both programs end with the result array at the specified function of
    those two arrays: the kernel block by block over the whole array, the reference operation by operation. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.IsSpec.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
